-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibPlainProduct.lean ====
/-
  A plain matrix product read at an index, over any extents.

  For `x : [M, K]` and `y : [K, N]` and a dimension record between `[M, K]`, `[K, N]` and `[M, N]` that contracts the
  left operand's second axis with the right operand's first one, the sum over the contraction index in which a
  `tpu.matmul` into the zero accumulator and a host `dot_general` are both read at the ideal values is, at output index
  `(i, j)`, the textbook `Σ_d x[i, d] · y[d, j]`. It is stated for any record whose operand indices have, axis by axis,
  the coordinates a plain product has (four equations, each closed by `rfl` at a literal record), so one statement
  serves records of different extents.
-/
import Idealize.ShloMosaic.PureOps.Ideal.Laws
import Idealize.ShloMosaic.Lib.ValueIdx

noncomputable section

namespace Idealize.ShloMosaic.PlainProduct

open Idealize.ShloMosaic Idealize.ShloMosaic.ValueIdx

/-- **The contraction sum of a plain product, re-indexed by its one coordinate.** `D` is any dimension record between
    `[M, K]`, `[K, N]` and `[M, N]` with one contracted axis of extent `K` whose left operand index at output index `j`
    and contraction index `k` is `(j 0, k)` and whose right one is `(k, j 1)`. -/
theorem sum_contr {M K N : Nat}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : (⟨2, ![M, K]⟩ : Shape).Idx → EReal) (y : (⟨2, ![K, N]⟩ : Shape).Idx → EReal)
    (i : Fin M) (j : Fin N) :
    ∑ k : D.contr.Idx, x (D.lhsIdx (ix2 i j) k) * y (D.rhsIdx (ix2 i j) k)
      = ∑ d : Fin K, x (ix2 i d) * y (ix2 d j) := by
  rw [← Equiv.sum_comp (contrEquiv1 D K hr hs).symm]
  refine Finset.sum_congr rfl fun d _ => ?_
  have el : D.lhsIdx (ix2 i j) ((contrEquiv1 D K hr hs).symm d) = ix2 i d := by
    funext a
    refine Fin.ext ?_
    match a with
    | ⟨0, _⟩ => exact hl0 _ _
    | ⟨1, _⟩ => exact (hl1 _ _).trans (contrEquiv1_symm_val D K hr hs d)
  have er : D.rhsIdx (ix2 i j) ((contrEquiv1 D K hr hs).symm d) = ix2 d j := by
    funext a
    refine Fin.ext ?_
    match a with
    | ⟨0, _⟩ => exact (hr0 _ _).trans (contrEquiv1_symm_val D K hr hs d)
    | ⟨1, _⟩ => exact hr1 _ _
  rw [el, er]

/-- A `tpu.matmul` into the zero accumulator, at the ideal values, read at `(i, j)`. -/
theorem matmul_zero_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    matmul D prec x y (constant (F := Ideal) ⟨2, ![M, N]⟩ .f32 0x00000000#32) (ix2 i j)
      = ∑ d : Fin K, x (ix2 i d) * y (ix2 d j) :=
  (Ideal.matmul_constant_zero_apply D prec x y (ix2 i j)).trans (sum_contr D hr hs hl0 hl1 hr0 hr1 x y i j)

/-- A host `dot_general`, at the ideal values, read at `(i, j)`. -/
theorem dotGeneral_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    Host.dotGeneral D prec x y (ix2 i j) = ∑ d : Fin K, x (ix2 i d) * y (ix2 d j) := by
  simp only [Host.dotGeneral]
  exact (Ideal.dotGeneral_apply D prec _ x y (ix2 i j)).trans (sum_contr D hr hs hl0 hl1 hr0 hr1 x y i j)

end Idealize.ShloMosaic.PlainProduct

end
-- ==== Proof.Region0.lean ====
import proofs.«142798_j83932250898476_1_alg».proof.Proof.Gen.KernelIdeal.Frame
import proofs.«142798_j83932250898476_1_alg».proof.Proof.RefRead
import proofs.«142798_j83932250898476_1_alg».proof.Proof.LibPlainProduct

set_option maxRecDepth 16384

noncomputable section

namespace Cert.KernelIdeal.KV

open Cert.KernelIdeal Cert.KernelIdeal.Gen
open Idealize.ShloMosaic Idealize.ShloMosaic.TcCoe Idealize.SL.Sem
open Cert.ReferenceIdeal.ReadP (val_main_v3 val_main_v6 val_main_v31 val_main_v32 val_main_v45 val_main_v47 val_main_v49 val_main_v50 val_main_v63 val_main_v65 val_main_v66 val_main_call1_v0)

variable (V : (c : Dev nD) → (b : Ref sig .tc) → Buf (Elt Ideal) ((c : Thread nD τ).loc b))

/-! The region multiplies a [100000,128] array by a [128,128] array, one block of 5000 rows at a grid point: point `t` reads
    rows `5000·t … 5000·t + 4999` of the left array and the whole right array, and writes the same rows of the output.
    The body's product into a zero accumulator is, at the ideal values, the plain sum `Σ_d x[p, d] · w[d, q]` over the
    block (a change of float format is the identity there), and row `p` of block `t` is row `5000·t + p` of the array, so
    every block written is a block of the one whole-array product; the twenty blocks tile the 100000 rows. -/

open Idealize.ShloMosaic.ValueIdx (ix2 eq_ix2)

/-- The origin of a block, as the constant function. -/
theorem r0_origin_zero : (![0, 0] : Fin 2 → Nat) = fun _ => 0 := funext fun a => by fin_cases a <;> rfl

/-- One block's product at an index: the sum over the contracted axis of the block's row against the right array's column. -/
theorem r0_block_product_apply (xb : Vec Ideal S5000x128 .f32) (wb : Vec Ideal S128x128 .f32) (p : Fin 5000) (q : Fin 128) :
    k0_pay1 (F := Ideal) xb wb (ix2 p q) = ∑ d : Fin 128, xb (ix2 p d) * wb (ix2 d q) := by
  unfold k0_pay1
  exact PlainProduct.matmul_zero_apply dot_S5000x128_S128x128_S5000x128_1_0_0_1_n_n rfl rfl (fun _ _ => rfl) (fun _ _ => rfl)
    (fun _ _ => rfl) (fun _ _ => rfl) none (truncf .bf16 xb bitsLt_bf16_f32) (truncf .bf16 wb bitsLt_bf16_f32) p q

/-- The whole product at an index: the same sum over the whole arrays. -/
theorem r0_whole_product_apply (x : Vec Ideal S100000x128 .f32) (w : Vec Ideal S128x128 .f32) (r : Fin 100000) (q : Fin 128) :
    val_main_v32 (F := Ideal) x w (ix2 r q) = ∑ d : Fin 128, x (ix2 r d) * w (ix2 d q) := by
  unfold val_main_v32
  exact PlainProduct.dotGeneral_apply Cert.ReferenceIdeal.dot_S100000x128_S128x128_S100000x128_1_0_0_1_n_n rfl rfl (fun _ _ => rfl)
    (fun _ _ => rfl) (fun _ _ => rfl) (fun _ _ => rfl) none x w r q

/-- The printed index maps over the grid: the left operand's row block moves with the output's, every other block index
    is zero, and the output's row block index is below twenty. -/
theorem r0_index_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block of the output is some point's. -/
theorem r0_index_onto : ∀ q0 : Fin 20, ∃ t : Fin cfg0.N, win0_2.index t = ![q0.val, 0] :=
  (by decide +kernel : ∀ q0 : Fin 20, ∃ t : Fin grid0.N, win0_2.index t = ![q0.val, 0])

/-- Point `t`'s block of the left array at (p, d) is the array at row 5000 · (block index) + p, column d. -/
theorem r0_left_block_apply (c : Dev nD) (t : Fin cfg0.N) (p : Fin 5000) (d : Fin 128) (r : Fin 100000)
    (hr : r.val = win0_2.index t (0 : Fin 2) * 5000 + p.val) :
    (iblk0 V c 0 t : Vec Ideal S5000x128 .f32) (ix2 p d) = (V c main_arg0 : Vec Ideal S100000x128 .f32) (ix2 r d) := by
  obtain ⟨e0, e1, e2, e3, e4, e5⟩ := r0_index_facts t
  unfold iblk0
  rw [View.read_apply]
  show V c main_arg0 _ = V c main_arg0 _
  congr 1
  funext a; apply Fin.ext
  match a with
  | ⟨0, _⟩ => show win0_0.index t (0 : Fin 2) * 5000 + 1 * p.val = r.val; omega
  | ⟨1, _⟩ => show win0_0.index t (1 : Fin 2) * 128 + 1 * d.val = d.val; omega

/-- Every point's block of the right array is the whole array. -/
theorem r0_right_block_apply (c : Dev nD) (t : Fin cfg0.N) (d : Fin 128) (q : Fin 128) :
    (iblk0 V c 1 t : Vec Ideal S128x128 .f32) (ix2 d q) = (V c main_arg2 : Vec Ideal S128x128 .f32) (ix2 d q) := by
  obtain ⟨e0, e1, e2, e3, e4, e5⟩ := r0_index_facts t
  unfold iblk0
  rw [View.read_apply]
  show V c main_arg2 _ = V c main_arg2 _
  congr 1
  funext a; apply Fin.ext
  match a with
  | ⟨0, _⟩ => show win0_1.index t (0 : Fin 2) * 128 + 1 * d.val = d.val; omega
  | ⟨1, _⟩ => show win0_1.index t (1 : Fin 2) * 128 + 1 * q.val = q.val; omega

/-- What point `t` writes back is its block of the whole product of the two arrays as the region finds them. -/
theorem r0_flushed_block (c : Dev nD) (t : Fin cfg0.N) :
    (dat0 (F := Ideal) V c).flushed 2 t
      = ((cfg0.win 2).blk t).view.read (Elt Ideal) (val_main_v32 (F := Ideal) (V c main_arg0) (V c main_arg2)) := by
  show (cfg0.win 2).cut (grid0.coords t) ((dat0 V c).after 2 t) = _
  rw [after0_2]
  unfold out0_2
  rw [View.canon_unit_zero r0_origin_zero]
  simp only [View.ld_unit_zero (S := S5000x128) r0_origin_zero, View.ld_unit_zero (S := S128x128) r0_origin_zero]
  funext j
  obtain ⟨p, q, rfl⟩ : ∃ (p : Fin 5000) (q : Fin 128), j = ix2 p q := ⟨j 0, j 1, eq_ix2 j⟩
  obtain ⟨e0, e1, e2, e3, e4, e5⟩ := r0_index_facts t
  have hp : p.val < 5000 := p.isLt
  refine (r0_block_product_apply (iblk0 V c 0 t) (iblk0 V c 1 t) p q).trans ?_
  rw [View.read_apply]
  have hemb : ((cfg0.win 2).blk t).view.emb (ix2 p q)
      = (ix2 (⟨win0_2.index t (0 : Fin 2) * 5000 + p.val, by omega⟩ : Fin 100000) q : S100000x128.Idx) := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [hemb, r0_whole_product_apply]
  refine Finset.sum_congr rfl fun d _ => ?_
  rw [r0_left_block_apply V c t p d ⟨win0_2.index t (0 : Fin 2) * 5000 + p.val, by omega⟩ rfl, r0_right_block_apply V c t d q]

/-- An index of the output array lies in point `t`'s block iff, on each axis, its coordinate lies in the block's range. -/
theorem r0_mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The twenty blocks of 5000 rows tile the 100000 rows: row r lies in the block of the point whose block index is r / 5000. -/
theorem r0_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := r0_index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [r0_mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0: the output array after the region is the whole product of the two input arrays as the region finds them. -/
theorem region0_value (c : Dev nD) :
    (dat0 (F := Ideal) V c).arrAt 2 cfg0.N
      = val_main_v32 (F := Ideal) (V c main_arg0) (V c main_arg2) :=
  (dat0 (F := Ideal) V c).arrAt_eq_of_cover 2 (val_main_v32 (F := Ideal) (V c main_arg0) (V c main_arg2))
    (fun t _ => r0_flushed_block V c t) r0_covered

end Cert.KernelIdeal.KV

end
-- ==== Proof.Region1.lean ====
import proofs.«142798_j83932250898476_1_alg».proof.Proof.Gen.KernelIdeal.Frame
import proofs.«142798_j83932250898476_1_alg».proof.Proof.RefRead

set_option maxRecDepth 16384

noncomputable section

namespace Cert.KernelIdeal.KV

open Cert.KernelIdeal Cert.KernelIdeal.Gen
open Idealize.ShloMosaic Idealize.ShloMosaic.TcCoe Idealize.SL.Sem
open Cert.ReferenceIdeal.ReadP (val_main_v3 val_main_v6 val_main_v31 val_main_v32 val_main_v45 val_main_v47 val_main_v49 val_main_v50 val_main_v63 val_main_v65 val_main_v66 val_main_call1_v0)

variable (V : (c : Dev nD) → (b : Ref sig .tc) → Buf (Elt Ideal) ((c : Thread nD τ).loc b))

open Idealize.ShloMosaic.ValueIdx in
/-- The body's arithmetic at one entry of a block: the input entry plus the bias entry of its column, then the maximum with zero. -/
theorem r1_body_apply (xb : Vec Ideal S5000x128 .f32) (bb : Vec Ideal S1x128 .f32) (p : Fin 5000) (q : Fin 128) :
    (k1_pay1 (F := Ideal) xb bb) (ix2 p q) = max (xb (ix2 p q) + bb (ix2 (0 : Fin 1) q)) (Ideal.ofBits .f32 0x00000000#32) := by
  unfold k1_pay1
  rw [maximumf_apply, addf_apply, shapeCast_self, shapeCast_self, broadcast_apply,
    broadcastTo_apply bb broadcasts_S1x128_S5000x128 (ix2 p q) (ix2 (0 : Fin 1) q) (fun a => match a with
      | ⟨0, _⟩ => rfl
      | ⟨1, _⟩ => by show q.val = if (128 : Nat) = 1 then 0 else q.val; rw [if_neg (by decide)])]
  rfl

open Idealize.ShloMosaic.ValueIdx in
/-- The reference's bias array at one entry: the bias vector's entry of that column. -/
theorem r1_ref_bias_apply (x3 : (⟨S128, .f32⟩ : BufTy).Contents (Elt Ideal)) (r : Fin 100000) (q : Fin 128) :
    val_main_v47 (F := Ideal) x3 (ix2 r q) = (x3 : S128.Idx → EReal) (ix1 q) := by
  rw [Cert.ReferenceIdeal.ReadP.val_main_v47_apply, Cert.ReferenceIdeal.ReadP.val_main_v46_apply]
  exact congrArg x3 (funext fun a => match a with | ⟨0, _⟩ => rfl)

open Idealize.ShloMosaic.ValueIdx in
/-- The reference's zero array at one entry. -/
theorem r1_ref_zero_apply (i : S100000x128.Idx) :
    val_main_call1_v0 (F := Ideal) i = Ideal.ofBits .f32 0x00000000#32 := by
  rw [Cert.ReferenceIdeal.ReadP.val_main_call1_v0_apply, Cert.ReferenceIdeal.ReadP.val_main_call1_cst_apply]
  rfl

/-- Both offsets of a whole-buffer access are zero. -/
theorem r1_zero_offsets : (![0, 0] : Fin 2 → Nat) = fun _ => 0 := funext fun a => match a with | ⟨0, _⟩ => rfl | ⟨1, _⟩ => rfl

/-- The printed index maps over the grid: at point t the input's and the output's row block is block t, the column block is 0,
    and the bias row's block is (0, 0). -/
theorem r1_index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

open Idealize.ShloMosaic.ValueIdx in
/-- The input's block at point t is rows 5000·t … 5000·t + 4999 of the input array. -/
theorem r1_rows_block_apply (c : Dev nD) (t : Fin cfg1.N) (p : Fin 5000) (q : Fin 128) (h : 5000 * t.val + p.val < 100000) :
    (iblk1 (F := Ideal) V c 0 t : Vec Ideal S5000x128 .f32) (ix2 p q)
      = (V c main_v45 : S100000x128.Idx → EReal) (ix2 ⟨5000 * t.val + p.val, h⟩ q) := by
  obtain ⟨e0, e1, -⟩ := r1_index_maps t
  unfold iblk1
  rw [View.read_apply]
  show V c main_v45 _ = V c main_v45 _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

open Idealize.ShloMosaic.ValueIdx in
/-- The bias window's block at every point is the whole one-row bias array. -/
theorem r1_bias_block_apply (c : Dev nD) (t : Fin cfg1.N) (q : Fin 128) :
    (iblk1 (F := Ideal) V c 1 t : Vec Ideal S1x128 .f32) (ix2 (0 : Fin 1) q)
      = (V c main_v46 : S1x128.Idx → EReal) (ix2 (0 : Fin 1) q) := by
  obtain ⟨-, -, e0, e1, -⟩ := r1_index_maps t
  unfold iblk1
  rw [View.read_apply]
  show V c main_v46 _ = V c main_v46 _
  congr 1
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

open Idealize.ShloMosaic.ValueIdx in
/-- The bias vector reshaped to one row, read at a column. -/
theorem r1_bias_row_apply (x3 : (⟨S128, .f32⟩ : BufTy).Contents (Elt Ideal)) (q : Fin 128) :
    shapeCast S1x128 x3 shapeCasts_S128_S1x128 (ix2 (0 : Fin 1) q) = (x3 : S128.Idx → EReal) (ix1 q) :=
  shapeCast_apply x3 shapeCasts_S128_S1x128 _ _ (by
    rw [Shape.rowMajor_val_two, Shape.rowMajor_val_one]
    show q.val = 0 * 128 + q.val
    omega)

open Idealize.ShloMosaic.ValueIdx in
/-- An entry of the output's block at point t sits in the output array at row 5000·t + its row, same column. -/
theorem r1_out_block_read (c : Dev nD) (G : FVec Ideal S100000x128 .f32) (t : Fin cfg1.N) (p : Fin 5000) (q : Fin 128) (h : 5000 * t.val + p.val < 100000) :
    (((cfg1.win 2).blk t).view.read (Elt Ideal) G : Vec Ideal S5000x128 .f32) (ix2 p q) = G (ix2 ⟨5000 * t.val + p.val, h⟩ q) := by
  obtain ⟨-, -, -, -, e0, e1⟩ := r1_index_maps t
  rw [View.read_apply]
  show G _ = G _
  congr 1
  funext a; apply Fin.ext
  match a with
  | ⟨0, _⟩ => show win1_2.index t (0 : Fin 2) * 5000 + 1 * p.val = 5000 * t.val + p.val; rw [e0]; omega
  | ⟨1, _⟩ => show win1_2.index t (1 : Fin 2) * 128 + 1 * q.val = q.val; rw [e1]; omega

open Idealize.ShloMosaic.ValueIdx in
/-- What point t writes back is block t of the whole-array result: the bias added to every row of the input array, then the maximum with zero. -/
theorem r1_flushed_eq (c : Dev nD) (x3 : (⟨S128, .f32⟩ : BufTy).Contents (Elt Ideal))
    (h46 : V c main_v46 = shapeCast S1x128 x3 shapeCasts_S128_S1x128) (t : Fin cfg1.N) :
    (dat1 (F := Ideal) V c).flushed 2 t = ((cfg1.win 2).blk t).view.read (Elt Ideal)
      (maximumf (F := Ideal) (s := S100000x128) (φ := .f32) (addf (V c main_v45) (val_main_v47 (F := Ideal) x3)) (val_main_call1_v0 (F := Ideal))) := by
  show (cfg1.win 2).cut (grid1.coords t) ((dat1 V c).after 2 t) = _
  rw [after1_2]
  unfold out1_2
  rw [View.canon_unit_zero r1_zero_offsets]
  simp only [View.ld_unit_zero (S := S5000x128) r1_zero_offsets, View.ld_unit_zero (S := S1x128) r1_zero_offsets]
  funext j
  obtain ⟨p, q, rfl⟩ : ∃ (p : Fin 5000) (q : Fin 128), j = ix2 p q := ⟨j 0, j 1, eq_ix2 j⟩
  have hN : cfg1.N = 20 := N_1
  have ht : t.val < 20 := hN ▸ t.isLt
  have h : 5000 * t.val + p.val < 100000 := by have := p.isLt; omega
  refine (r1_body_apply (iblk1 V c 0 t) (iblk1 V c 1 t) p q).trans ?_
  rw [r1_out_block_read c _ t p q h, maximumf_apply, addf_apply, r1_ref_bias_apply, r1_ref_zero_apply,
    r1_rows_block_apply V c t p q h, r1_bias_block_apply V c t q, h46, r1_bias_row_apply]

/-- An index of the output array is in point t's block iff each coordinate is in the block's range on its axis. -/
theorem r1_mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The twenty row blocks tile the output array: row r is in the block of point r / 5000. -/
theorem r1_cover (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  have hlt : (i 0).val / 5000 < cfg1.N := by rw [hN]; omega
  obtain ⟨-, -, -, -, e0, e1⟩ := r1_index_maps ⟨(i 0).val / 5000, hlt⟩
  refine ⟨⟨(i 0).val / 5000, hlt⟩, flush1_2 _, ?_⟩
  rw [r1_mem_block]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e1]; omega

/-- Region 1: the output array after the region is the bias row added to every row of the input array, then the maximum with zero. -/
theorem region1_value (c : Dev nD) (x3 : (⟨S128, .f32⟩ : BufTy).Contents (Elt Ideal))
    (h46 : V c main_v46 = shapeCast S1x128 x3 shapeCasts_S128_S1x128) :
    ((dat1 (F := Ideal) V c).arrAt 2 cfg1.N : FVec Ideal S100000x128 .f32)
      = maximumf (F := Ideal) (s := S100000x128) (φ := .f32) (addf (V c main_v45) (val_main_v47 (F := Ideal) x3)) (val_main_call1_v0 (F := Ideal)) := by
  exact (dat1 (F := Ideal) V c).arrAt_eq_of_cover 2 _ (fun t _ => r1_flushed_eq V c x3 h46 t) r1_cover

end Cert.KernelIdeal.KV

end
-- ==== Proof.Region2.lean ====
import proofs.«142798_j83932250898476_1_alg».proof.Proof.Gen.KernelIdeal.Frame
import proofs.«142798_j83932250898476_1_alg».proof.Proof.RefRead
import proofs.«142798_j83932250898476_1_alg».proof.Proof.LibPlainProduct

set_option maxRecDepth 16384

noncomputable section

namespace Cert.KernelIdeal.KV

open Cert.KernelIdeal Cert.KernelIdeal.Gen
open Idealize.ShloMosaic Idealize.ShloMosaic.TcCoe Idealize.SL.Sem
open Cert.ReferenceIdeal.ReadP (val_main_v3 val_main_v6 val_main_v31 val_main_v32 val_main_v45 val_main_v47 val_main_v49 val_main_v50 val_main_v63 val_main_v65 val_main_v66 val_main_call1_v0)

variable (V : (c : Dev nD) → (b : Ref sig .tc) → Buf (Elt Ideal) ((c : Thread nD τ).loc b))

/-! The region multiplies a [100000,128] array by a [128,64] array, one block of 5000 rows at a grid point: point `t` reads
    rows `5000·t … 5000·t + 4999` of the left array and the whole right array, and writes the same rows of the output.
    The body's product into a zero accumulator is, at the ideal values, the plain sum `Σ_d x[p, d] · w[d, q]` over the
    block (a change of float format is the identity there, and so is the body's reshape of a block to its own shape), and row `p` of block `t` is row `5000·t + p` of the array, so
    every block written is a block of the one whole-array product; the twenty blocks tile the 100000 rows. -/

open Idealize.ShloMosaic.ValueIdx (ix2 eq_ix2)

/-- The origin of a block, as the constant function. -/
theorem r2_origin_zero : (![0, 0] : Fin 2 → Nat) = fun _ => 0 := funext fun a => by fin_cases a <;> rfl

/-- One block's product at an index: the sum over the contracted axis of the block's row against the right array's column. -/
theorem r2_block_product_apply (xb : Vec Ideal S5000x128 .f32) (wb : Vec Ideal S128x64 .f32) (p : Fin 5000) (q : Fin 64) :
    k2_pay1 (F := Ideal) xb wb (ix2 p q) = ∑ d : Fin 128, xb (ix2 p d) * wb (ix2 d q) := by
  unfold k2_pay1
  rw [shapeCast_self]
  exact PlainProduct.matmul_zero_apply dot_S5000x128_S128x64_S5000x64_1_0_0_1_n_n rfl rfl (fun _ _ => rfl) (fun _ _ => rfl)
    (fun _ _ => rfl) (fun _ _ => rfl) none (truncf .bf16 xb bitsLt_bf16_f32) (truncf .bf16 wb bitsLt_bf16_f32) p q

/-- The whole product at an index: the same sum over the whole arrays. -/
theorem r2_whole_product_apply (x : Vec Ideal S100000x128 .f32) (w : Vec Ideal S128x64 .f32) (r : Fin 100000) (q : Fin 64) :
    Host.dotGeneral (F := Ideal) (φ₁ := .f32) (φ₂ := .f32) Cert.ReferenceIdeal.dot_S100000x128_S128x64_S100000x64_1_0_0_1_n_n none x w (ix2 r q) = ∑ d : Fin 128, x (ix2 r d) * w (ix2 d q) := by
  exact PlainProduct.dotGeneral_apply Cert.ReferenceIdeal.dot_S100000x128_S128x64_S100000x64_1_0_0_1_n_n rfl rfl (fun _ _ => rfl)
    (fun _ _ => rfl) (fun _ _ => rfl) (fun _ _ => rfl) none x w r q

/-- The printed index maps over the grid: the left operand's row block moves with the output's, every other block index
    is zero, and the output's row block index is below twenty. -/
theorem r2_index_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every row block of the output is some point's. -/
theorem r2_index_onto : ∀ q0 : Fin 20, ∃ t : Fin cfg2.N, win2_2.index t = ![q0.val, 0] :=
  (by decide +kernel : ∀ q0 : Fin 20, ∃ t : Fin grid2.N, win2_2.index t = ![q0.val, 0])

/-- Point `t`'s block of the left array at (p, d) is the array at row 5000 · (block index) + p, column d. -/
theorem r2_left_block_apply (c : Dev nD) (t : Fin cfg2.N) (p : Fin 5000) (d : Fin 128) (r : Fin 100000)
    (hr : r.val = win2_2.index t (0 : Fin 2) * 5000 + p.val) :
    (iblk2 V c 0 t : Vec Ideal S5000x128 .f32) (ix2 p d) = (V c main_v47 : Vec Ideal S100000x128 .f32) (ix2 r d) := by
  obtain ⟨e0, e1, e2, e3, e4, e5⟩ := r2_index_facts t
  unfold iblk2
  rw [View.read_apply]
  show V c main_v47 _ = V c main_v47 _
  congr 1
  funext a; apply Fin.ext
  match a with
  | ⟨0, _⟩ => show win2_0.index t (0 : Fin 2) * 5000 + 1 * p.val = r.val; omega
  | ⟨1, _⟩ => show win2_0.index t (1 : Fin 2) * 128 + 1 * d.val = d.val; omega

/-- Every point's block of the right array is the whole array. -/
theorem r2_right_block_apply (c : Dev nD) (t : Fin cfg2.N) (d : Fin 128) (q : Fin 64) :
    (iblk2 V c 1 t : Vec Ideal S128x64 .f32) (ix2 d q) = (V c main_arg4 : Vec Ideal S128x64 .f32) (ix2 d q) := by
  obtain ⟨e0, e1, e2, e3, e4, e5⟩ := r2_index_facts t
  unfold iblk2
  rw [View.read_apply]
  show V c main_arg4 _ = V c main_arg4 _
  congr 1
  funext a; apply Fin.ext
  match a with
  | ⟨0, _⟩ => show win2_1.index t (0 : Fin 2) * 128 + 1 * d.val = d.val; omega
  | ⟨1, _⟩ => show win2_1.index t (1 : Fin 2) * 64 + 1 * q.val = q.val; omega

/-- What point `t` writes back is its block of the whole product of the two arrays as the region finds them. -/
theorem r2_flushed_block (c : Dev nD) (t : Fin cfg2.N) :
    (dat2 (F := Ideal) V c).flushed 2 t
      = ((cfg2.win 2).blk t).view.read (Elt Ideal) (Host.dotGeneral (F := Ideal) (φ₁ := .f32) (φ₂ := .f32) Cert.ReferenceIdeal.dot_S100000x128_S128x64_S100000x64_1_0_0_1_n_n none (V c main_v47) (V c main_arg4)) := by
  show (cfg2.win 2).cut (grid2.coords t) ((dat2 V c).after 2 t) = _
  rw [after2_2]
  unfold out2_2
  rw [View.canon_unit_zero r2_origin_zero]
  simp only [View.ld_unit_zero (S := S5000x128) r2_origin_zero, View.ld_unit_zero (S := S128x64) r2_origin_zero]
  funext j
  obtain ⟨p, q, rfl⟩ : ∃ (p : Fin 5000) (q : Fin 64), j = ix2 p q := ⟨j 0, j 1, eq_ix2 j⟩
  obtain ⟨e0, e1, e2, e3, e4, e5⟩ := r2_index_facts t
  have hp : p.val < 5000 := p.isLt
  refine (r2_block_product_apply (iblk2 V c 0 t) (iblk2 V c 1 t) p q).trans ?_
  rw [View.read_apply]
  have hemb : ((cfg2.win 2).blk t).view.emb (ix2 p q)
      = (ix2 (⟨win2_2.index t (0 : Fin 2) * 5000 + p.val, by omega⟩ : Fin 100000) q : S100000x64.Idx) := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 64 + 1 * q.val = q.val; omega
  rw [hemb, r2_whole_product_apply]
  refine Finset.sum_congr rfl fun d _ => ?_
  rw [r2_left_block_apply V c t p d ⟨win2_2.index t (0 : Fin 2) * 5000 + p.val, by omega⟩ rfl, r2_right_block_apply V c t d q]

/-- An index of the output array lies in point `t`'s block iff, on each axis, its coordinate lies in the block's range. -/
theorem r2_mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The twenty blocks of 5000 rows tile the 100000 rows: row r lies in the block of the point whose block index is r / 5000. -/
theorem r2_covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := r2_index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [r2_mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- Region 2: the output array after the region is the whole product of the two input arrays as the region finds them. -/
theorem region2_value (c : Dev nD) :
    (dat2 (F := Ideal) V c).arrAt 2 cfg2.N
      = Host.dotGeneral (F := Ideal) (φ₁ := .f32) (φ₂ := .f32) Cert.ReferenceIdeal.dot_S100000x128_S128x64_S100000x64_1_0_0_1_n_n none (V c main_v47) (V c main_arg4) :=
  (dat2 (F := Ideal) V c).arrAt_eq_of_cover 2 (Host.dotGeneral (F := Ideal) (φ₁ := .f32) (φ₂ := .f32) Cert.ReferenceIdeal.dot_S100000x128_S128x64_S100000x64_1_0_0_1_n_n none (V c main_v47) (V c main_arg4))
    (fun t _ => r2_flushed_block V c t) r2_covered

end Cert.KernelIdeal.KV

end
-- ==== Proof.Region3.lean ====
import proofs.«142798_j83932250898476_1_alg».proof.Proof.Gen.KernelIdeal.Frame
import proofs.«142798_j83932250898476_1_alg».proof.Proof.RefRead

set_option maxRecDepth 16384

noncomputable section

namespace Cert.KernelIdeal.KV

open Cert.KernelIdeal Cert.KernelIdeal.Gen
open Idealize.ShloMosaic Idealize.ShloMosaic.TcCoe Idealize.SL.Sem
open Cert.ReferenceIdeal.ReadP (val_main_v3 val_main_v6 val_main_v31 val_main_v32 val_main_v45 val_main_v47 val_main_v49 val_main_v50 val_main_v63 val_main_v65 val_main_v66 val_main_call1_v0)

variable (V : (c : Dev nD) → (b : Ref sig .tc) → Buf (Elt Ideal) ((c : Thread nD τ).loc b))

open Idealize.ShloMosaic.ValueIdx in
/-- The body's arithmetic at one entry of a block: the input entry plus the bias entry of its column. -/
theorem r3_body_apply (xb : Vec Ideal S5000x64 .f32) (bb : Vec Ideal S1x64 .f32) (p : Fin 5000) (q : Fin 64) :
    (k3_pay1 (F := Ideal) xb bb) (ix2 p q) = xb (ix2 p q) + bb (ix2 (0 : Fin 1) q) := by
  unfold k3_pay1
  rw [addf_apply, shapeCast_self, shapeCast_self,
    broadcastTo_apply bb broadcasts_S1x64_S5000x64 (ix2 p q) (ix2 (0 : Fin 1) q) (fun a => match a with
      | ⟨0, _⟩ => rfl
      | ⟨1, _⟩ => by show q.val = if (64 : Nat) = 1 then 0 else q.val; rw [if_neg (by decide)])]

open Idealize.ShloMosaic.ValueIdx in
/-- The reference's bias array at one entry: the bias vector's entry of that column. -/
theorem r3_ref_bias_apply (x5 : (⟨S64, .f32⟩ : BufTy).Contents (Elt Ideal)) (r : Fin 100000) (q : Fin 64) :
    val_main_v65 (F := Ideal) x5 (ix2 r q) = (x5 : S64.Idx → EReal) (ix1 q) := by
  rw [Cert.ReferenceIdeal.ReadP.val_main_v65_apply, Cert.ReferenceIdeal.ReadP.val_main_v64_apply]
  exact congrArg x5 (funext fun a => match a with | ⟨0, _⟩ => rfl)

/-- Both offsets of a whole-buffer access are zero. -/
theorem r3_zero_offsets : (![0, 0] : Fin 2 → Nat) = fun _ => 0 := funext fun a => match a with | ⟨0, _⟩ => rfl | ⟨1, _⟩ => rfl

/-- The printed index maps over the grid: at point t the input's and the output's row block is block t, the column block is 0,
    and the bias row's block is (0, 0). -/
theorem r3_index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

open Idealize.ShloMosaic.ValueIdx in
/-- The input's block at point t is rows 5000·t … 5000·t + 4999 of the input array. -/
theorem r3_rows_block_apply (c : Dev nD) (t : Fin cfg3.N) (p : Fin 5000) (q : Fin 64) (h : 5000 * t.val + p.val < 100000) :
    (iblk3 (F := Ideal) V c 0 t : Vec Ideal S5000x64 .f32) (ix2 p q)
      = (V c main_v61 : S100000x64.Idx → EReal) (ix2 ⟨5000 * t.val + p.val, h⟩ q) := by
  obtain ⟨e0, e1, -⟩ := r3_index_maps t
  unfold iblk3
  rw [View.read_apply]
  show V c main_v61 _ = V c main_v61 _
  congr 1
  funext a; apply Fin.ext
  match a with
  | ⟨0, _⟩ => show win3_0.index t (0 : Fin 2) * 5000 + 1 * p.val = 5000 * t.val + p.val; rw [e0]; omega
  | ⟨1, _⟩ => show win3_0.index t (1 : Fin 2) * 64 + 1 * q.val = q.val; rw [e1]; omega

open Idealize.ShloMosaic.ValueIdx in
/-- The bias window's block at every point is the whole one-row bias array. -/
theorem r3_bias_block_apply (c : Dev nD) (t : Fin cfg3.N) (q : Fin 64) :
    (iblk3 (F := Ideal) V c 1 t : Vec Ideal S1x64 .f32) (ix2 (0 : Fin 1) q)
      = (V c main_v62 : S1x64.Idx → EReal) (ix2 (0 : Fin 1) q) := by
  obtain ⟨-, -, e0, e1, -⟩ := r3_index_maps t
  unfold iblk3
  rw [View.read_apply]
  show V c main_v62 _ = V c main_v62 _
  congr 1
  funext a; apply Fin.ext
  match a with
  | ⟨0, _⟩ => show win3_1.index t (0 : Fin 2) * 1 + 1 * 0 = 0; rw [e0]
  | ⟨1, _⟩ => show win3_1.index t (1 : Fin 2) * 64 + 1 * q.val = q.val; rw [e1]; omega

open Idealize.ShloMosaic.ValueIdx in
/-- The bias vector reshaped to one row, read at a column. -/
theorem r3_bias_row_apply (x5 : (⟨S64, .f32⟩ : BufTy).Contents (Elt Ideal)) (q : Fin 64) :
    shapeCast S1x64 x5 shapeCasts_S64_S1x64 (ix2 (0 : Fin 1) q) = (x5 : S64.Idx → EReal) (ix1 q) :=
  shapeCast_apply x5 shapeCasts_S64_S1x64 _ _ (by
    rw [Shape.rowMajor_val_two, Shape.rowMajor_val_one]
    show q.val = 0 * 64 + q.val
    omega)

open Idealize.ShloMosaic.ValueIdx in
/-- An entry of the output's block at point t sits in the output array at row 5000·t + its row, same column. -/
theorem r3_out_block_read (c : Dev nD) (G : FVec Ideal S100000x64 .f32) (t : Fin cfg3.N) (p : Fin 5000) (q : Fin 64) (h : 5000 * t.val + p.val < 100000) :
    (((cfg3.win 2).blk t).view.read (Elt Ideal) G : Vec Ideal S5000x64 .f32) (ix2 p q) = G (ix2 ⟨5000 * t.val + p.val, h⟩ q) := by
  obtain ⟨-, -, -, -, e0, e1⟩ := r3_index_maps t
  rw [View.read_apply]
  show G _ = G _
  congr 1
  funext a; apply Fin.ext
  match a with
  | ⟨0, _⟩ => show win3_2.index t (0 : Fin 2) * 5000 + 1 * p.val = 5000 * t.val + p.val; rw [e0]; omega
  | ⟨1, _⟩ => show win3_2.index t (1 : Fin 2) * 64 + 1 * q.val = q.val; rw [e1]; omega

open Idealize.ShloMosaic.ValueIdx in
/-- What point t writes back is block t of the whole-array result: the bias added to every row of the input array. -/
theorem r3_flushed_eq (c : Dev nD) (x5 : (⟨S64, .f32⟩ : BufTy).Contents (Elt Ideal))
    (h62 : V c main_v62 = shapeCast S1x64 x5 shapeCasts_S64_S1x64) (t : Fin cfg3.N) :
    (dat3 (F := Ideal) V c).flushed 2 t = ((cfg3.win 2).blk t).view.read (Elt Ideal)
      (addf (F := Ideal) (s := S100000x64) (φ := .f32) (V c main_v61) (val_main_v65 (F := Ideal) x5)) := by
  show (cfg3.win 2).cut (grid3.coords t) ((dat3 V c).after 2 t) = _
  rw [after3_2]
  unfold out3_2
  rw [View.canon_unit_zero r3_zero_offsets]
  simp only [View.ld_unit_zero (S := S5000x64) r3_zero_offsets, View.ld_unit_zero (S := S1x64) r3_zero_offsets]
  funext j
  obtain ⟨p, q, rfl⟩ : ∃ (p : Fin 5000) (q : Fin 64), j = ix2 p q := ⟨j 0, j 1, eq_ix2 j⟩
  have hN : cfg3.N = 20 := N_3
  have ht : t.val < 20 := hN ▸ t.isLt
  have h : 5000 * t.val + p.val < 100000 := by have := p.isLt; omega
  refine (r3_body_apply (iblk3 V c 0 t) (iblk3 V c 1 t) p q).trans ?_
  rw [r3_out_block_read c _ t p q h, addf_apply, r3_ref_bias_apply,
    r3_rows_block_apply V c t p q h, r3_bias_block_apply V c t q, h62, r3_bias_row_apply]

/-- An index of the output array is in point t's block iff each coordinate is in the block's range on its axis. -/
theorem r3_mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- The twenty row blocks tile the output array: row r is in the block of point r / 5000. -/
theorem r3_cover (i : S100000x64.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 64 := (i 1).isLt
  have hlt : (i 0).val / 5000 < cfg3.N := by rw [hN]; omega
  obtain ⟨-, -, -, -, e0, e1⟩ := r3_index_maps ⟨(i 0).val / 5000, hlt⟩
  refine ⟨⟨(i 0).val / 5000, hlt⟩, flush3_2 _, ?_⟩
  rw [r3_mem_block]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_2.index ⟨(i 0).val / 5000, hlt⟩ (1 : Fin 2) * 64 ≤ (i 1).val ∧ (i 1).val < win3_2.index ⟨(i 0).val / 5000, hlt⟩ (1 : Fin 2) * 64 + 64
    rw [e1]; omega

/-- Region 3: the output array after the region is the bias row added to every row of the input array. -/
theorem region3_value (c : Dev nD) (x5 : (⟨S64, .f32⟩ : BufTy).Contents (Elt Ideal))
    (h62 : V c main_v62 = shapeCast S1x64 x5 shapeCasts_S64_S1x64) :
    ((dat3 (F := Ideal) V c).arrAt 2 cfg3.N : FVec Ideal S100000x64 .f32)
      = addf (F := Ideal) (s := S100000x64) (φ := .f32) (V c main_v61) (val_main_v65 (F := Ideal) x5) := by
  exact (dat3 (F := Ideal) V c).arrAt_eq_of_cover 2 _ (fun t _ => r3_flushed_eq V c x5 h62 t) r3_cover

end Cert.KernelIdeal.KV

end
-- ==== Proof.Host0.lean ====
import proofs.«142798_j83932250898476_1_alg».proof.Proof.Gen.KernelIdeal.Launch
import proofs.«142798_j83932250898476_1_alg».proof.Proof.RefRead
import Idealize.ShloMosaic.Lib.StableHlo.Run
set_option maxRecDepth 16384

noncomputable section

namespace Cert.KernelIdeal.KV

open Cert.KernelIdeal Cert.KernelIdeal.Gen
open Idealize.ShloMosaic Idealize.ShloMosaic.TcCoe Idealize.SL.Sem
open Cert.ReferenceIdeal.ReadP (val_main_v3 val_main_v6 val_main_v31 val_main_v32 val_main_v45 val_main_v47 val_main_v49 val_main_v50 val_main_v63 val_main_v65 val_main_v66 val_main_call1_v0)

open Idealize.ShloMosaic.StableHlo (after)
variable {F : FTy → Type} [FloatOps F]
variable (W : Valuation τ sig (Elt F))

/-- The buffer contents after the three host stretches before the first region, from contents `W`. -/
abbrev afterHost0 : Valuation τ sig (Elt F) := after hostOps0_2 (after hostOps0_1 (after hostOps0 W))

/-- The edge sources with the self-loops appended. -/
theorem host0_v3 : afterHost0 W (Proc.devRef .tc main_v3) = val_main_v3 (F := F) (W (Proc.devRef .tc main_arg1)) := by
  unfold afterHost0
  -- the three folds at the result buffer are the stretches' operations applied to the contents at the argument
  after_results_simp
  -- operation for operation the reference's own chain, stage by stage
  rfl
/-- The edge targets with the self-loops appended. -/
theorem host0_v6 : afterHost0 W (Proc.devRef .tc main_v6) = val_main_v6 (F := F) (W (Proc.devRef .tc main_arg1)) := by
  unfold afterHost0
  -- the three folds at the result buffer are the stretches' operations applied to the contents at the argument
  after_results_simp
  -- operation for operation the reference's own chain, stage by stage
  rfl
/-- The symmetric normalisation weight of every edge. -/
theorem host0_v31 : afterHost0 W (Proc.devRef .tc main_v31) = val_main_v31 (F := F) (W (Proc.devRef .tc main_arg1)) := by
  unfold afterHost0
  -- the three folds at the result buffer are the stretches' operations applied to the contents at the argument
  after_results_simp
  -- operation for operation the reference's own chain, stage by stage
  rfl
/-- The stretches write no argument. -/
theorem host0_arg0 : afterHost0 W (Proc.devRef .tc main_arg0) = W (Proc.devRef .tc main_arg0) :=
  (StableHlo.after_of_forall_not_mem (b := Proc.devRef .tc main_arg0) hostOps0_2 (after hostOps0_1 (after hostOps0 W)) (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  ((StableHlo.after_of_forall_not_mem (b := Proc.devRef .tc main_arg0) hostOps0_1 (after hostOps0 W) (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  (StableHlo.after_of_forall_not_mem (b := Proc.devRef .tc main_arg0) hostOps0 W (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))))
theorem host0_arg2 : afterHost0 W (Proc.devRef .tc main_arg2) = W (Proc.devRef .tc main_arg2) :=
  (StableHlo.after_of_forall_not_mem (b := Proc.devRef .tc main_arg2) hostOps0_2 (after hostOps0_1 (after hostOps0 W)) (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  ((StableHlo.after_of_forall_not_mem (b := Proc.devRef .tc main_arg2) hostOps0_1 (after hostOps0 W) (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  (StableHlo.after_of_forall_not_mem (b := Proc.devRef .tc main_arg2) hostOps0 W (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))))
theorem host0_arg3 : afterHost0 W (Proc.devRef .tc main_arg3) = W (Proc.devRef .tc main_arg3) :=
  (StableHlo.after_of_forall_not_mem (b := Proc.devRef .tc main_arg3) hostOps0_2 (after hostOps0_1 (after hostOps0 W)) (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  ((StableHlo.after_of_forall_not_mem (b := Proc.devRef .tc main_arg3) hostOps0_1 (after hostOps0 W) (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  (StableHlo.after_of_forall_not_mem (b := Proc.devRef .tc main_arg3) hostOps0 W (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))))
theorem host0_arg4 : afterHost0 W (Proc.devRef .tc main_arg4) = W (Proc.devRef .tc main_arg4) :=
  (StableHlo.after_of_forall_not_mem (b := Proc.devRef .tc main_arg4) hostOps0_2 (after hostOps0_1 (after hostOps0 W)) (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  ((StableHlo.after_of_forall_not_mem (b := Proc.devRef .tc main_arg4) hostOps0_1 (after hostOps0 W) (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  (StableHlo.after_of_forall_not_mem (b := Proc.devRef .tc main_arg4) hostOps0 W (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))))
theorem host0_arg5 : afterHost0 W (Proc.devRef .tc main_arg5) = W (Proc.devRef .tc main_arg5) :=
  (StableHlo.after_of_forall_not_mem (b := Proc.devRef .tc main_arg5) hostOps0_2 (after hostOps0_1 (after hostOps0 W)) (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  ((StableHlo.after_of_forall_not_mem (b := Proc.devRef .tc main_arg5) hostOps0_1 (after hostOps0 W) (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
  (StableHlo.after_of_forall_not_mem (b := Proc.devRef .tc main_arg5) hostOps0 W (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))))

end Cert.KernelIdeal.KV

end
-- ==== Proof.Host1.lean ====
import proofs.«142798_j83932250898476_1_alg».proof.Proof.Gen.KernelIdeal.Launch
import proofs.«142798_j83932250898476_1_alg».proof.Proof.RefRead
import Idealize.ShloMosaic.Lib.StableHlo.Run
set_option maxRecDepth 16384

noncomputable section

namespace Cert.KernelIdeal.KV

open Cert.KernelIdeal Cert.KernelIdeal.Gen
open Idealize.ShloMosaic Idealize.ShloMosaic.TcCoe Idealize.SL.Sem
open Cert.ReferenceIdeal.ReadP (val_main_v3 val_main_v6 val_main_v31 val_main_v32 val_main_v45 val_main_v47 val_main_v49 val_main_v50 val_main_v63 val_main_v65 val_main_v66 val_main_call1_v0)

open Idealize.ShloMosaic.StableHlo (after)
variable {F : FTy → Type} [FloatOps F]
variable (W : Valuation τ sig (Elt F))

/-- The first aggregation: the messages gathered from the first product, weighted, and summed into their targets. -/
theorem host1_v45 (x0 : (⟨S100000x128, .f32⟩ : BufTy).Contents (Elt F)) (x1 : (⟨S2x1600000, .i32⟩ : BufTy).Contents (Elt F))
    (x2 : (⟨S128x128, .f32⟩ : BufTy).Contents (Elt F))
    (h32 : W (Proc.devRef .tc main_v32) = val_main_v32 (F := F) x0 x2)
    (h3 : W (Proc.devRef .tc main_v3) = val_main_v3 (F := F) x1)
    (h6 : W (Proc.devRef .tc main_v6) = val_main_v6 (F := F) x1)
    (h31 : W (Proc.devRef .tc main_v31) = val_main_v31 (F := F) x1) :
    after hostOps1 W (Proc.devRef .tc main_v45) = val_main_v45 (F := F) x0 x1 x2 := by
  -- the fold at the result buffer is the stretch's operations applied to the contents at its input buffers
  after_results_simp
  -- the inputs are the reference's stages; what is left is the reference's own chain, stage by stage
  rw [h32, h3, h6, h31]
  rfl
/-- The first bias as a one-row array. -/
theorem host1_v46 : after hostOps1 W (Proc.devRef .tc main_v46)
    = shapeCast S1x128 (W (Proc.devRef .tc main_arg3)) shapeCasts_S128_S1x128 := by
  after_results_simp
  rfl
/-- The stretch writes none of these. -/
theorem host1_v3 : after hostOps1 W (Proc.devRef .tc main_v3) = W (Proc.devRef .tc main_v3) :=
  StableHlo.after_of_forall_not_mem (b := Proc.devRef .tc main_v3) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem host1_v6 : after hostOps1 W (Proc.devRef .tc main_v6) = W (Proc.devRef .tc main_v6) :=
  StableHlo.after_of_forall_not_mem (b := Proc.devRef .tc main_v6) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem host1_v31 : after hostOps1 W (Proc.devRef .tc main_v31) = W (Proc.devRef .tc main_v31) :=
  StableHlo.after_of_forall_not_mem (b := Proc.devRef .tc main_v31) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem host1_arg4 : after hostOps1 W (Proc.devRef .tc main_arg4) = W (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem host1_arg5 : after hostOps1 W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Cert.KernelIdeal.KV

end
-- ==== Proof.Host3.lean ====
import proofs.«142798_j83932250898476_1_alg».proof.Proof.Gen.KernelIdeal.Launch
import proofs.«142798_j83932250898476_1_alg».proof.Proof.RefRead
import Idealize.ShloMosaic.Lib.StableHlo.Run
set_option maxRecDepth 16384

noncomputable section

namespace Cert.KernelIdeal.KV

open Cert.KernelIdeal Cert.KernelIdeal.Gen
open Idealize.ShloMosaic Idealize.ShloMosaic.TcCoe Idealize.SL.Sem
open Cert.ReferenceIdeal.ReadP (val_main_v3 val_main_v6 val_main_v31 val_main_v32 val_main_v45 val_main_v47 val_main_v49 val_main_v50 val_main_v63 val_main_v65 val_main_v66 val_main_call1_v0)

open Idealize.ShloMosaic.StableHlo (after)
variable {F : FTy → Type} [FloatOps F]
variable (W : Valuation τ sig (Elt F))

/-- The second aggregation: the messages gathered from the second product, weighted, and summed into their targets. -/
theorem host3_v61 (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x64, .f32⟩ : BufTy).Contents (Elt F))
    (h48 : W (Proc.devRef .tc main_v48) = val_main_v50 (F := F) x0 x1 x2 x3 x4)
    (h3 : W (Proc.devRef .tc main_v3) = val_main_v3 (F := F) x1)
    (h6 : W (Proc.devRef .tc main_v6) = val_main_v6 (F := F) x1)
    (h31 : W (Proc.devRef .tc main_v31) = val_main_v31 (F := F) x1) :
    after hostOps3 W (Proc.devRef .tc main_v61) = val_main_v63 (F := F) x0 x1 x2 x3 x4 := by
  -- the fold at the result buffer is the stretch's operations applied to the contents at its input buffers
  after_results_simp
  -- the inputs are the reference's stages; what is left is the reference's own chain, stage by stage
  rw [h48, h3, h6, h31]
  rfl
/-- The second bias as a one-row array. -/
theorem host3_v62 : after hostOps3 W (Proc.devRef .tc main_v62)
    = shapeCast S1x64 (W (Proc.devRef .tc main_arg5)) shapeCasts_S64_S1x64 := by
  after_results_simp
  rfl

end Cert.KernelIdeal.KV

end
-- ==== Proof.Chain.lean ====
import proofs.«142798_j83932250898476_1_alg».proof.Proof.Gen.KernelIdeal.Frame
import proofs.«142798_j83932250898476_1_alg».proof.Proof.RefRead
import proofs.«142798_j83932250898476_1_alg».proof.Proof.Region0
import proofs.«142798_j83932250898476_1_alg».proof.Proof.Region1
import proofs.«142798_j83932250898476_1_alg».proof.Proof.Region2
import proofs.«142798_j83932250898476_1_alg».proof.Proof.Region3
import proofs.«142798_j83932250898476_1_alg».proof.Proof.Host0
import proofs.«142798_j83932250898476_1_alg».proof.Proof.Host1
import proofs.«142798_j83932250898476_1_alg».proof.Proof.Host3

set_option maxRecDepth 16384

noncomputable section

namespace Cert.KernelIdeal.KV

open Cert.KernelIdeal Cert.KernelIdeal.Gen
open Idealize.ShloMosaic Idealize.ShloMosaic.TcCoe Idealize.SL.Sem
open Cert.ReferenceIdeal.ReadP (val_main_v3 val_main_v6 val_main_v31 val_main_v32 val_main_v45 val_main_v47 val_main_v49 val_main_v50 val_main_v63 val_main_v65 val_main_v66 val_main_call1_v0)

/-!
  The buffer contents at every boundary of the idealized kernel's @main, read as the reference's own stage
  functions of the argument arrays. The generated frame names the contents at the nine boundaries `W0 … W9`:
  a host stretch's are the fold of its operations over the previous boundary's, a region's are the previous
  boundary's with the region's arrays at what the write-backs leave. Walking them in order:

  * before the first region the edge sources, the edge targets and the edge weights are the reference's
    (the same operations of the edge list);
  * region 0 leaves `x · W1`, the reference's first product;
  * the next stretch gathers, weights and sums it into the first aggregation, the reference's;
  * region 1 adds the bias row and takes the maximum with zero: the reference's hidden activations;
  * region 2 leaves their product with `W2`; the last stretch aggregates it; region 3 adds the second bias row:
    the reference's result.
-/

variable (m : (ℓ : Loc nD τ sig) → Buf (Elt Ideal) ℓ) (ρ : Dev nD → PrngReg)

/-- The six argument arrays of core `c` at launch. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)

/-! ## Region 0's entry: after the three stretches on the edge list -/

theorem W3_v3 (c : Dev nD) : W3 m ρ c (Proc.devRef .tc main_v3) = val_main_v3 (F := Ideal) (x1 m c) := host0_v3 (W0 m ρ c)
theorem W3_v6 (c : Dev nD) : W3 m ρ c (Proc.devRef .tc main_v6) = val_main_v6 (F := Ideal) (x1 m c) := host0_v6 (W0 m ρ c)
theorem W3_v31 (c : Dev nD) : W3 m ρ c (Proc.devRef .tc main_v31) = val_main_v31 (F := Ideal) (x1 m c) := host0_v31 (W0 m ρ c)
theorem W3_arg0 (c : Dev nD) : W3 m ρ c (Proc.devRef .tc main_arg0) = x0 m c := host0_arg0 (W0 m ρ c)
theorem W3_arg2 (c : Dev nD) : W3 m ρ c (Proc.devRef .tc main_arg2) = x2 m c := host0_arg2 (W0 m ρ c)
theorem W3_arg3 (c : Dev nD) : W3 m ρ c (Proc.devRef .tc main_arg3) = x3 m c := host0_arg3 (W0 m ρ c)
theorem W3_arg4 (c : Dev nD) : W3 m ρ c (Proc.devRef .tc main_arg4) = x4 m c := host0_arg4 (W0 m ρ c)
theorem W3_arg5 (c : Dev nD) : W3 m ρ c (Proc.devRef .tc main_arg5) = x5 m c := host0_arg5 (W0 m ρ c)

/-! ## Region 0's exit: the first product; everything else as entered -/

theorem W4_v32 (c : Dev nD) : W4 m ρ c (Proc.devRef .tc main_v32) = val_main_v32 (F := Ideal) (x0 m c) (x2 m c) := by
  refine (W4_arr m ρ c 2).trans ((region0_value (V3 m ρ) c).trans ?_)
  have e0 : V3 m ρ c main_arg0 = x0 m c := W3_arg0 m ρ c
  have e2 : V3 m ρ c main_arg2 = x2 m c := W3_arg2 m ρ c
  rw [e0, e2]
theorem W4_v3 (c : Dev nD) : W4 m ρ c (Proc.devRef .tc main_v3) = val_main_v3 (F := Ideal) (x1 m c) :=
  (W4_of_ne m ρ c main_v3 (by decide)).trans (W3_v3 m ρ c)
theorem W4_v6 (c : Dev nD) : W4 m ρ c (Proc.devRef .tc main_v6) = val_main_v6 (F := Ideal) (x1 m c) :=
  (W4_of_ne m ρ c main_v6 (by decide)).trans (W3_v6 m ρ c)
theorem W4_v31 (c : Dev nD) : W4 m ρ c (Proc.devRef .tc main_v31) = val_main_v31 (F := Ideal) (x1 m c) :=
  (W4_of_ne m ρ c main_v31 (by decide)).trans (W3_v31 m ρ c)
theorem W4_arg3 (c : Dev nD) : W4 m ρ c (Proc.devRef .tc main_arg3) = x3 m c :=
  (W4_of_ne m ρ c main_arg3 (by decide)).trans (W3_arg3 m ρ c)
theorem W4_arg4 (c : Dev nD) : W4 m ρ c (Proc.devRef .tc main_arg4) = x4 m c :=
  (W4_of_ne m ρ c main_arg4 (by decide)).trans (W3_arg4 m ρ c)
theorem W4_arg5 (c : Dev nD) : W4 m ρ c (Proc.devRef .tc main_arg5) = x5 m c :=
  (W4_of_ne m ρ c main_arg5 (by decide)).trans (W3_arg5 m ρ c)

/-! ## Region 1's entry: the first aggregation and the first bias as a row -/

theorem W5_v45 (c : Dev nD) : W5 m ρ c (Proc.devRef .tc main_v45) = val_main_v45 (F := Ideal) (x0 m c) (x1 m c) (x2 m c) :=
  host1_v45 (W4 m ρ c) (x0 m c) (x1 m c) (x2 m c) (W4_v32 m ρ c) (W4_v3 m ρ c) (W4_v6 m ρ c) (W4_v31 m ρ c)
theorem W5_v46 (c : Dev nD) : W5 m ρ c (Proc.devRef .tc main_v46) = shapeCast S1x128 (x3 m c) shapeCasts_S128_S1x128 := by
  refine (host1_v46 (W4 m ρ c)).trans ?_
  rw [W4_arg3 m ρ c]
theorem W5_v3 (c : Dev nD) : W5 m ρ c (Proc.devRef .tc main_v3) = val_main_v3 (F := Ideal) (x1 m c) :=
  (host1_v3 (W4 m ρ c)).trans (W4_v3 m ρ c)
theorem W5_v6 (c : Dev nD) : W5 m ρ c (Proc.devRef .tc main_v6) = val_main_v6 (F := Ideal) (x1 m c) :=
  (host1_v6 (W4 m ρ c)).trans (W4_v6 m ρ c)
theorem W5_v31 (c : Dev nD) : W5 m ρ c (Proc.devRef .tc main_v31) = val_main_v31 (F := Ideal) (x1 m c) :=
  (host1_v31 (W4 m ρ c)).trans (W4_v31 m ρ c)
theorem W5_arg4 (c : Dev nD) : W5 m ρ c (Proc.devRef .tc main_arg4) = x4 m c :=
  (host1_arg4 (W4 m ρ c)).trans (W4_arg4 m ρ c)
theorem W5_arg5 (c : Dev nD) : W5 m ρ c (Proc.devRef .tc main_arg5) = x5 m c :=
  (host1_arg5 (W4 m ρ c)).trans (W4_arg5 m ρ c)

/-! ## Region 1's exit: the hidden activations -/

theorem W6_v47 (c : Dev nD) : W6 m ρ c (Proc.devRef .tc main_v47) = val_main_v49 (F := Ideal) (x0 m c) (x1 m c) (x2 m c) (x3 m c) := by
  refine (W6_arr m ρ c 2).trans ((region1_value (V5 m ρ) c (x3 m c) (W5_v46 m ρ c)).trans ?_)
  have e : V5 m ρ c main_v45 = val_main_v45 (F := Ideal) (x0 m c) (x1 m c) (x2 m c) := W5_v45 m ρ c
  rw [e]
  rfl
theorem W6_v3 (c : Dev nD) : W6 m ρ c (Proc.devRef .tc main_v3) = val_main_v3 (F := Ideal) (x1 m c) :=
  (W6_of_ne m ρ c main_v3 (by decide)).trans (W5_v3 m ρ c)
theorem W6_v6 (c : Dev nD) : W6 m ρ c (Proc.devRef .tc main_v6) = val_main_v6 (F := Ideal) (x1 m c) :=
  (W6_of_ne m ρ c main_v6 (by decide)).trans (W5_v6 m ρ c)
theorem W6_v31 (c : Dev nD) : W6 m ρ c (Proc.devRef .tc main_v31) = val_main_v31 (F := Ideal) (x1 m c) :=
  (W6_of_ne m ρ c main_v31 (by decide)).trans (W5_v31 m ρ c)
theorem W6_arg4 (c : Dev nD) : W6 m ρ c (Proc.devRef .tc main_arg4) = x4 m c :=
  (W6_of_ne m ρ c main_arg4 (by decide)).trans (W5_arg4 m ρ c)
theorem W6_arg5 (c : Dev nD) : W6 m ρ c (Proc.devRef .tc main_arg5) = x5 m c :=
  (W6_of_ne m ρ c main_arg5 (by decide)).trans (W5_arg5 m ρ c)

/-! ## Region 2's exit: the second product -/

theorem W7_v48 (c : Dev nD) : W7 m ρ c (Proc.devRef .tc main_v48) = val_main_v50 (F := Ideal) (x0 m c) (x1 m c) (x2 m c) (x3 m c) (x4 m c) := by
  refine (W7_arr m ρ c 2).trans ((region2_value (V6 m ρ) c).trans ?_)
  have e47 : V6 m ρ c main_v47 = val_main_v49 (F := Ideal) (x0 m c) (x1 m c) (x2 m c) (x3 m c) := W6_v47 m ρ c
  have e4 : V6 m ρ c main_arg4 = x4 m c := W6_arg4 m ρ c
  rw [e47, e4]
  rfl
theorem W7_v3 (c : Dev nD) : W7 m ρ c (Proc.devRef .tc main_v3) = val_main_v3 (F := Ideal) (x1 m c) :=
  (W7_of_ne m ρ c main_v3 (by decide)).trans (W6_v3 m ρ c)
theorem W7_v6 (c : Dev nD) : W7 m ρ c (Proc.devRef .tc main_v6) = val_main_v6 (F := Ideal) (x1 m c) :=
  (W7_of_ne m ρ c main_v6 (by decide)).trans (W6_v6 m ρ c)
theorem W7_v31 (c : Dev nD) : W7 m ρ c (Proc.devRef .tc main_v31) = val_main_v31 (F := Ideal) (x1 m c) :=
  (W7_of_ne m ρ c main_v31 (by decide)).trans (W6_v31 m ρ c)
theorem W7_arg5 (c : Dev nD) : W7 m ρ c (Proc.devRef .tc main_arg5) = x5 m c :=
  (W7_of_ne m ρ c main_arg5 (by decide)).trans (W6_arg5 m ρ c)

/-! ## Region 3's entry: the second aggregation and the second bias as a row -/

theorem W8_v61 (c : Dev nD) : W8 m ρ c (Proc.devRef .tc main_v61) = val_main_v63 (F := Ideal) (x0 m c) (x1 m c) (x2 m c) (x3 m c) (x4 m c) :=
  host3_v61 (W7 m ρ c) (x0 m c) (x1 m c) (x2 m c) (x3 m c) (x4 m c) (W7_v48 m ρ c) (W7_v3 m ρ c) (W7_v6 m ρ c) (W7_v31 m ρ c)
theorem W8_v62 (c : Dev nD) : W8 m ρ c (Proc.devRef .tc main_v62) = shapeCast S1x64 (x5 m c) shapeCasts_S64_S1x64 := by
  refine (host3_v62 (W7 m ρ c)).trans ?_
  rw [W7_arg5 m ρ c]

/-! ## Region 3's exit: the result -/

/-- The result array at the last boundary is the reference's result, as a function of the argument arrays. -/
theorem W9_v63 (c : Dev nD) : W9 m ρ c (Proc.devRef .tc main_v63)
    = val_main_v66 (F := Ideal) (x0 m c) (x1 m c) (x2 m c) (x3 m c) (x4 m c) (x5 m c) := by
  refine (W9_arr m ρ c 2).trans ((region3_value (V8 m ρ) c (x5 m c) (W8_v62 m ρ c)).trans ?_)
  have e : V8 m ρ c main_v61 = val_main_v63 (F := Ideal) (x0 m c) (x1 m c) (x2 m c) (x3 m c) (x4 m c) := W8_v61 m ρ c
  rw [e]
  rfl

end Cert.KernelIdeal.KV

end
-- ==== Proof.lean ====
/-
  A two-layer graph convolution: `out = Â · relu(Â · (x · W1) + b1) · W2 + b2`, where `Â` is the edge list's
  normalised adjacency with self-loops (every edge weighted by the inverse square roots of its two end points'
  degrees; a gather of the source rows, a product with the weight, a scatter-add into the target rows).

  The kernel computes the two dense products `x · W1` and `h · W2` and the two bias steps (the first with the
  maximum with zero) in four pipelined calls over row blocks of 5000 rows, and everything on the edge list — the degrees,
  the weights, the gathers and the scatter-adds — by the same host operations as the reference. At the ideal values a
  block product into the zero accumulator, its operands' change of float format the identity, is the same sum over the
  contracted axis as the reference's whole product, row block by row block; the bias steps are pointwise; so boundary
  by boundary the kernel's buffers hold the reference's own stage values (Proof/Chain.lean), and the two results are
  one function of the argument arrays. No law of the extended reals beyond reading both sides at an index is used, and
  the precondition is never opened.
-/
import proofs.«142798_j83932250898476_1_alg».proof.Defs
import proofs.«142798_j83932250898476_1_alg».proof.Proof.Gen.Kernel
import proofs.«142798_j83932250898476_1_alg».proof.Proof.Gen.Kernel.Frame
import proofs.«142798_j83932250898476_1_alg».proof.Proof.Gen.KernelIdeal
import proofs.«142798_j83932250898476_1_alg».proof.Proof.Gen.KernelIdeal.Frame
import proofs.«142798_j83932250898476_1_alg».proof.Proof.Gen.ReferenceIdeal
import proofs.«142798_j83932250898476_1_alg».proof.Proof.Gen.Pre_finite_inputs
import proofs.«142798_j83932250898476_1_alg».proof.Proof.RefRun
import proofs.«142798_j83932250898476_1_alg».proof.Proof.RefRead
import proofs.«142798_j83932250898476_1_alg».proof.Proof.KernelRun
import proofs.«142798_j83932250898476_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's result function of the argument arrays: the kernel's last boundary holds
    it (`W9_v63`), and the reference's run states it. -/
theorem algebraic : Cert.algebraic_KernelIdeal_ReferenceIdeal := by
  intro m ρ m' ρ' _ hagree
  refine ⟨fun c => Cert.ReferenceIdeal.ReadP.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KV.W9_v63 m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v66_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
